-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x4096 : Shape := ⟨3, ![8, 8, 4096]⟩
abbrev S8x1024x512 : Shape := ⟨3, ![8, 1024, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn {F : FTy → Type} [FloatOps F] (main_arg0 : IVec S8x8x4096 32) (main_arg1 : FVec F S8x1024x512 .f32) : IVec S_ 1 :=
  let main_v0 : FVec F S8x1024x512 .f32 := Host.absf main_arg1
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_c_0 : IVec S_ 32 := constantI S_ 32 0#32
  let main_v4 : IVec S8x8x4096 32 := broadcastInDim S8x8x4096 ![] bcast_S_S8x8x4096 main_c_0
  let main_v5 : IVec S8x8x4096 1 := cmpi .sge main_arg0 main_v4
  let main_c_1 : IVec S_ 1 := constantI S_ 1 1#1
  let main_v6 : IVec S_ 1 := (fun x v => Host.reduce IntOp.andi x v reducesTo_S8x8x4096_S_d0_1_2 h_S_) main_v5 main_c_1
  let main_v7 : IVec S_ 1 := andi main_v3 main_v6
  main_v7
-- ==== Kernel.lean ====
abbrev S8x8x4096 : Shape := ⟨3, ![8, 8, 4096]⟩
abbrev S8x1024x512 : Shape := ⟨3, ![8, 1024, 512]⟩
abbrev S_ : Shape := ⟨0, ![]⟩
abbrev S8x4096x512 : Shape := ⟨3, ![8, 4096, 512]⟩
abbrev S1x8x1024 : Shape := ⟨3, ![1, 8, 1024]⟩
abbrev S1x1024x512 : Shape := ⟨3, ![1, 1024, 512]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1024x512 : Shape := ⟨2, ![1024, 512]⟩

abbrev nBuf : Space → Nat
  | .hbm => 12
  | .vmem => 5
  | .smem => 0
  | _ => 0

abbrev bufTy : (tb : Table) → Fin (tcTables nBuf tb) → BufTy
  | .hbm, ⟨0, _⟩ => ⟨S8x8x4096, .i32⟩
  | .hbm, ⟨1, _⟩ => ⟨S8x1024x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8x8x4096, .i32⟩
  | .hbm, ⟨6, _⟩ => ⟨S8x8x4096, .i32⟩
  | .hbm, ⟨7, _⟩ => ⟨S_, .i32⟩
  | .hbm, ⟨8, _⟩ => ⟨S8x8x4096, .i32⟩
  | .hbm, ⟨9, _⟩ => ⟨S8x8x4096, .i32⟩
  | .hbm, ⟨10, _⟩ => ⟨S8x1024x512, .bf16⟩
  | .hbm, ⟨11, _⟩ => ⟨S8x4096x512, .f32⟩
  | .local _ .vmem, ⟨0, _⟩ => ⟨S1x8x1024, .i32⟩
  | .local _ .vmem, ⟨1, _⟩ => ⟨S1x8x1024, .i32⟩
  | .local _ .vmem, ⟨2, _⟩ => ⟨S8x1024x512, .bf16⟩
  | .local _ .vmem, ⟨3, _⟩ => ⟨S1x1024x512, .f32⟩
  | .local _ .vmem, ⟨4, _⟩ => ⟨S1x1024x512, .f32⟩
  | _, _ => ⟨S8x8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c1_i32 : BitVec 32 := 1#32
  let c7_i32 : BitVec 32 := 7#32
  let v12 : BitVec 32 := Scalar.addi c1_i32 c7_i32
  let c1_i32_5 : BitVec 32 := 1#32
  ⟨c1_i32, v12, c1_i32_5⟩
def k0_off1 (k0_t1 : Fin k0_t1_loop.trips) : Fin 3 → Nat :=
  let c0_10 : Index := 0#32
  let c1_i32 : BitVec 32 := 1#32
  let c1_i32_5 : BitVec 32 := 1#32
  let arg5 : BitVec 32 := Scf.iv c1_i32 c1_i32_5 k0_t1
  let v17 : Index := Scalar.indexCast arg5
  let c0_11 : Index := 0#32
  ![0, v17.toNat, 0]
def k0_off2 (k0_t1 : Fin k0_t1_loop.trips) : Fin 3 → Nat :=
  let c1_i32 : BitVec 32 := 1#32
  let c1_i32_5 : BitVec 32 := 1#32
  let arg5 : BitVec 32 := Scf.iv c1_i32 c1_i32_5 k0_t1
  let v26 : Index := Scalar.indexCast arg5
  let c0_12 : Index := 0#32
  let c0_13 : Index := 0#32
  ![v26.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8x8x4096 : S_.BroadcastsInDim S8x8x4096 (![] : Fin 0 → Fin S8x8x4096.rank)
  bitsLt_bf16_f32 : FTy.bits .bf16 < FTy.bits .f32
  iota_S1024x1024_d0_w32 : S1024x1024.Iotas .tc 32 [0]
  inb_S1x8x1024_S1x1x1024_0_0_0 : ∀ a, (![0, 0, 0] : Fin 3 → Nat) a + S1x1x1024.size a ≤ S1x8x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  natLt_1_32 : 1 < 32
  inb_S8x1024x512_S1x1024x512_0_0_0 : ∀ a, (![0, 0, 0] : Fin 3 → Nat) a + S1x1024x512.size a ≤ S8x1024x512.size a
  h_S1x1024x512 : 0 < S1x1024x512.numel
  shapeCasts_S1x1024x512_S1024x512 : S1x1024x512.ShapeCasts S1024x512
  inb_S1x1024x512_S1x1024x512_0_0_0 : ∀ a, (![0, 0, 0] : Fin 3 → Nat) a + S1x1024x512.size a ≤ S1x1024x512.size a
  shapeCasts_S1024x512_S1x1024x512 : S1024x512.ShapeCasts S1x1024x512
  dot_S1024x1024_S1024x512_S1024x512_0_0_1_1_n_n_wf : DotDims.WF S1024x1024 S1024x512 S1024x512 [0] [0] [1] [1] [] []
  hrank0 : 0 < grid0.rank
  k0_t1_ok : k0_t1_loop.OK
  k0_off1_inb : ∀ k0_t1 : Fin k0_t1_loop.trips, ∀ a, (k0_off1 k0_t1) a + S1x1x1024.size a ≤ S1x8x1024.size a
  k0_off2_inb : ∀ k0_t1 : Fin k0_t1_loop.trips, ∀ a, (k0_off2 k0_t1) a + S1x1024x512.size a ≤ S8x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024.size a ≤ S8x8x4096.size a
  hwx0_0 : ∀ i : grid0.Coords, EltTy.bits .i32 = 32 ∨ (Rect.block (s := S8x8x4096) S1x8x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x512.size a ≤ S8x1024x512.size a
  hwx0_1 : ∀ i : grid0.Coords, EltTy.bits .bf16 = 32 ∨ (Rect.block (s := S8x1024x512) S8x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x4096x512.size a
  hwx0_2 : ∀ i : grid0.Coords, EltTy.bits .f32 = 32 ∨ (Rect.block (s := S8x4096x512) S1x1024x512.size (cc0_transform_2 i) (hinb0_2 i)).WholeWords (EltTy.packing .f32)

variable [Facts₀]

def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.ofSpec (Memref.whole main_v0) S1x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8x4096 : Shape := ⟨3, ![8, 8, 4096]⟩
abbrev S8x1024x512 : Shape := ⟨3, ![8, 1024, 512]⟩
abbrev S8 : Shape := ⟨1, ![8]⟩
abbrev S1x8x1 : Shape := ⟨3, ![1, 8, 1]⟩
abbrev S_ : Shape := ⟨0, ![]⟩
abbrev S8x8x4096x1 : Shape := ⟨4, ![8, 8, 4096, 1]⟩
abbrev S8x8x4096x2 : Shape := ⟨4, ![8, 8, 4096, 2]⟩
abbrev S8x8x4096x512 : Shape := ⟨4, ![8, 8, 4096, 512]⟩
abbrev S8x4096x512 : Shape := ⟨3, ![8, 4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x8x4096, .i32⟩
  | .hbm, ⟨1, _⟩ => ⟨S8x1024x512, .f32⟩
  | .hbm, ⟨2, _⟩ => ⟨S8, .i32⟩
  | .hbm, ⟨3, _⟩ => ⟨S1x8x1, .i32⟩
  | .hbm, ⟨4, _⟩ => ⟨S_, .i32⟩
  | .hbm, ⟨5, _⟩ => ⟨S1x8x1, .i32⟩
  | .hbm, ⟨6, _⟩ => ⟨S1x8x1, .i1⟩
  | .hbm, ⟨7, _⟩ => ⟨S_, .i32⟩
  | .hbm, ⟨8, _⟩ => ⟨S1x8x1, .i32⟩
  | .hbm, ⟨9, _⟩ => ⟨S1x8x1, .i32⟩
  | .hbm, ⟨10, _⟩ => ⟨S1x8x1, .i32⟩
  | .hbm, ⟨11, _⟩ => ⟨S_, .i32⟩
  | .hbm, ⟨12, _⟩ => ⟨S8x8x4096, .i32⟩
  | .hbm, ⟨13, _⟩ => ⟨S8x8x4096, .i1⟩
  | .hbm, ⟨14, _⟩ => ⟨S_, .i32⟩
  | .hbm, ⟨15, _⟩ => ⟨S8x8x4096, .i32⟩
  | .hbm, ⟨16, _⟩ => ⟨S8x8x4096, .i32⟩
  | .hbm, ⟨17, _⟩ => ⟨S8x8x4096, .i32⟩
  | .hbm, ⟨18, _⟩ => ⟨S8x8x4096, .i32⟩
  | .hbm, ⟨19, _⟩ => ⟨S8x8x4096x1, .i32⟩
  | .hbm, ⟨20, _⟩ => ⟨S8x8x4096x1, .i32⟩
  | .hbm, ⟨21, _⟩ => ⟨S8x8x4096x2, .i32⟩
  | .hbm, ⟨22, _⟩ => ⟨S8x8x4096x512, .f32⟩
  | .hbm, ⟨23, _⟩ => ⟨S_, .f32⟩
  | .hbm, ⟨24, _⟩ => ⟨S8x4096x512, .f32⟩
  | _, _ => ⟨S8x8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S_S8x8x4096 : S_.BroadcastsInDim S8x8x4096 (![] : Fin 0 → Fin S8x8x4096.rank)
  bcast_S1x8x1_S8x8x4096_0_1_2 : S1x8x1.BroadcastsInDim S8x8x4096 (![0, 1, 2] : Fin 3 → Fin S8x8x4096.rank)
  bcast_S8x8x4096_S8x8x4096x1_0_1_2 : S8x8x4096.BroadcastsInDim S8x8x4096x1 (![0, 1, 2] : Fin 3 → Fin S8x8x4096x1.rank)
  concatenates_S8x8x4096x1_S8x8x4096x1_S8x8x4096x2_d3 : Shape.Concatenates [S8x8x4096x1, S8x8x4096x1] S8x8x4096x2 3
  reducesTo_S8x8x4096x512_S8x4096x512_d1 : S8x8x4096x512.ReducesTo [1] S8x4096x512
  h_S_ : 0 < S_.numel
  gather_S8x1024x512_S8x8x4096x2_S8x8x4096x512_3_01_n_n_01_3_11512_wf : GatherDims.WF S8x1024x512 S8x8x4096x2 S8x8x4096x512 [3] [0, 1] [] [0, 1] [] 3 ![1, 1, 512]

variable [Facts₀]

def gather_S8x1024x512_S8x8x4096x2_S8x8x4096x512_3_01_n_n_01_3_11512 : GatherDims S8x1024x512 S8x8x4096x2 S8x8x4096x512 where
  offsetDims := [3]
  collapsedSliceDims := [0, 1]
  operandBatchingDims := []
  startIndicesBatchingDims := []
  startIndexMap := [0, 1]
  indexVectorDim := 3
  sliceSizes := ![1, 1, 512]
  wf := gather_S8x1024x512_S8x8x4096x2_S8x8x4096x512_3_01_n_n_01_3_11512_wf

class Facts : Prop extends Facts₀ where

variable [Facts]
-- ==== Proof.Opened.lean ====
/-
  What one grid point's body leaves in its output block, as a recursion over the levels.

  The body forms level 0's product, then for each further level adds that level's product to the running sum,
  and stores the sum as its block. Level `l`'s product reads row `l` of the point's block of token ids and
  table `l` of the tables.
-/
import proofs.«402859_j86294482911710_3_alg».proof.Proof.Gen.KernelIdeal.Frame
import Idealize.ShloMosaic.Lib.Pipeline.Value

set_option maxRecDepth 16384

noncomputable section

namespace Cert.Embed.Opened

open Idealize.ShloMosaic Idealize.ShloMosaic.TcCoe Idealize.SL.Sem Cert.KernelIdeal Cert.KernelIdeal.Gen

variable {F : FTy → Type} [FloatOps F]

/-- Level 0's token ids and table, out of a point's block of ids `x0` and the tables `x1`. -/
def ids0 (x0 : Vec F S1x8x1024 .i32) : Vec F S1x1x1024 .i32 :=
  View.ld x0 (Rect.unit (s := S1x8x1024) ![0, 0, 0] S1x1x1024.size inb_S1x8x1024_S1x1x1024_0_0_0)
def tab0 (x1 : Vec F S8x1024x512 .bf16) : Vec F S1x1024x512 .bf16 :=
  View.ld x1 (Rect.unit (s := S8x1024x512) ![0, 0, 0] S1x1024x512.size inb_S8x1024x512_S1x1024x512_0_0_0)

/-- The token ids and the table the `k`-th trip of the level loop reads. -/
def idsAt (x0 : Vec F S1x8x1024 .i32) (k : Fin k0_t1_loop.trips) : Vec F S1x1x1024 .i32 :=
  View.ld x0 (Rect.unit (s := S1x8x1024) (k0_off1 k) S1x1x1024.size (k0_off1_inb k))
def tabAt (x1 : Vec F S8x1024x512 .bf16) (k : Fin k0_t1_loop.trips) : Vec F S1x1024x512 .bf16 :=
  View.ld x1 (Rect.unit (s := S8x1024x512) (k0_off2 k) S1x1024x512.size (k0_off2_inb k))

/-- The running sum before trip `n` of the level loop. -/
def accAt (x0 : Vec F S1x8x1024 .i32) (x1 : Vec F S8x1024x512 .bf16) : ℕ → FVec F S1024x512 .f32
  | 0 => k0_pay1 (ids0 x0) (tab0 x1)
  | n + 1 => if h : n < k0_t1_loop.trips then k0_pay2 (accAt x0 x1 n) (idsAt x0 ⟨n, h⟩) (tabAt x1 ⟨n, h⟩) else accAt x0 x1 n

/-- One trip adds its level's product: the trip's yield read off its run. -/
theorem trip_eq (𝒱 : Variants) (c : Dev nD) (bd : Option 𝒱.V) (i : grid0.Coords)
    (arg2 : Memref sig .tc .vmem S1x8x1024 .i32) (harg2 : arg2.IsWhole) (arg3 : Memref sig .tc .vmem S8x1024x512 .bf16) (harg3 : arg3.IsWhole)
    (arg4 : Memref sig .tc .vmem S1x1024x512 .f32) (harg4 : arg4.IsWhole)
    (x0 : Vec F S1x8x1024 .i32) (x1 : Vec F S8x1024x512 .bf16) (k : Fin k0_t1_loop.trips) (acc : FVec F S1024x512 .f32) :
    tripR_k0_t1 (F := F) 𝒱 c bd i arg2 harg2 arg3 harg3 arg4 harg4 (harg2.unread x0) (harg3.unread x1) k acc
      = k0_pay2 acc (idsAt x0 k) (tabAt x1 k) := by
  unfold tripR_k0_t1 trip_k0_t1
  dsimp only
  simp only [View.readAt_eq_ld, harg2.read_unread, harg3.read_unread]
  rfl

/-- The loop's carried value before trip `n` is the running sum. -/
theorem st_eq (𝒱 : Variants) (c : Dev nD) (bd : Option 𝒱.V) (i : grid0.Coords)
    (arg2 : Memref sig .tc .vmem S1x8x1024 .i32) (harg2 : arg2.IsWhole) (arg3 : Memref sig .tc .vmem S8x1024x512 .bf16) (harg3 : arg3.IsWhole)
    (arg4 : Memref sig .tc .vmem S1x1024x512 .f32) (harg4 : arg4.IsWhole)
    (x0 : Vec F S1x8x1024 .i32) (x1 : Vec F S8x1024x512 .bf16) (n : ℕ) :
    st_k0_t1 (F := F) 𝒱 c bd i arg2 harg2 arg3 harg3 arg4 harg4 (harg2.unread x0) (harg3.unread x1)
      (k0_pay1 (ids0 x0) (tab0 x1)) n = accAt x0 x1 n := by
  induction n with
  | zero => rfl
  | succ n ih =>
    rw [st_k0_t1.eq_2, accAt]
    unfold st_k0_t1Step
    by_cases h : n < k0_t1_loop.trips
    · rw [dif_pos h, dif_pos h, ih, trip_eq]
    · rw [dif_neg h, dif_neg h, ih]

/-- THE BLOCK a point's body leaves: the running sum after the last level, with a leading unit axis. -/
theorem out_eq (c : Dev nD) (i : grid0.Coords)
    (arg2 : Memref sig .tc .vmem S1x8x1024 .i32) (harg2 : arg2.IsWhole) (arg3 : Memref sig .tc .vmem S8x1024x512 .bf16) (harg3 : arg3.IsWhole)
    (arg4 : Memref sig .tc .vmem S1x1024x512 .f32) (harg4 : arg4.IsWhole)
    (x0 : Vec F S1x8x1024 .i32) (x1 : Vec F S8x1024x512 .bf16) :
    out0_A_2 c i arg2 harg2 arg3 harg3 arg4 harg4 x0 x1 = k0_pay3 (accAt x0 x1 7) := by
  unfold out0_A_2
  rw [View.read_writes_eq_canon _ _ _ (cover0_A_2 c i arg2 harg2 arg3 harg3 arg4 harg4 x0 x1)]
  unfold kernelRun0_A
  dsimp only
  rw [View.canon_unit_zero (by funext a; match a with | ⟨0, _⟩ => rfl | ⟨1, _⟩ => rfl | ⟨2, _⟩ => rfl)]
  simp only [View.readAt_eq_ld, harg2.read_unread, harg3.read_unread]
  have h7 : Scf.trips (1#32) (Scalar.addi 1#32 7#32) 1#32 = 7 := by decide
  rw [h7]
  exact congrArg k0_pay3 (st_eq Variants.none c none i arg2 harg2 arg3 harg3 arg4 harg4 x0 x1 7)

end Cert.Embed.Opened

end
-- ==== Proof.Payload.lean ====
/-
  The body's arithmetic read at an index, at the ideal values: a one-hot matrix times a table selects a row.
-/
import proofs.«402859_j86294482911710_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Embed.Pay

open Idealize.ShloMosaic Idealize.ShloMosaic.ValueIdx Cert.KernelIdeal Cert.KernelIdeal.Gen

/-! ## The product's operand indices

The product contracts axis 0 of both operands and keeps axis 1 of both: at output index `i` and contraction
index `c` the left operand is read at `(c, i 0)` and the right operand at `(c, i 1)`. One coordinate per lemma. -/

theorem lhs_axis0 (i : S1024x512.Idx) (c : dot_S1024x1024_S1024x512_S1024x512_0_0_1_1_n_n.contr.Idx) :
    (dot_S1024x1024_S1024x512_S1024x512_0_0_1_1_n_n.lhsIdx i c 0).val = (c ⟨0, by decide⟩).val :=
  dot_S1024x1024_S1024x512_S1024x512_0_0_1_1_n_n.lhsIdx_val_of_single rfl i c

theorem lhs_axis1 (i : S1024x512.Idx) (c : dot_S1024x1024_S1024x512_S1024x512_0_0_1_1_n_n.contr.Idx) :
    (dot_S1024x1024_S1024x512_S1024x512_0_0_1_1_n_n.lhsIdx i c 1).val = (i 0).val := by
  unfold DotDims.lhsIdx
  rw [dif_neg (show ¬(1 : Fin S1024x1024.rank) ∈ dot_S1024x1024_S1024x512_S1024x512_0_0_1_1_n_n.lhsBatch by decide),
    dif_pos (show (1 : Fin S1024x1024.rank) ∈ dot_S1024x1024_S1024x512_S1024x512_0_0_1_1_n_n.lhsNonContracting by decide)]
  rfl

theorem rhs_axis0 (i : S1024x512.Idx) (c : dot_S1024x1024_S1024x512_S1024x512_0_0_1_1_n_n.contr.Idx) :
    (dot_S1024x1024_S1024x512_S1024x512_0_0_1_1_n_n.rhsIdx i c 0).val = (c ⟨0, by decide⟩).val :=
  dot_S1024x1024_S1024x512_S1024x512_0_0_1_1_n_n.rhsIdx_val_of_single rfl i c

theorem rhs_axis1 (i : S1024x512.Idx) (c : dot_S1024x1024_S1024x512_S1024x512_0_0_1_1_n_n.contr.Idx) :
    (dot_S1024x1024_S1024x512_S1024x512_0_0_1_1_n_n.rhsIdx i c 1).val = (i 1).val := by
  unfold DotDims.rhsIdx
  rw [dif_neg (show ¬(1 : Fin S1024x512.rank) ∈ dot_S1024x1024_S1024x512_S1024x512_0_0_1_1_n_n.rhsBatch by decide),
    dif_pos (show (1 : Fin S1024x512.rank) ∈ dot_S1024x1024_S1024x512_S1024x512_0_0_1_1_n_n.rhsNonContracting by decide)]
  rfl

/-! ## The two operands read at an index -/

/-- The level's row of ids, cast to a vector, then to one row, then broadcast down the rows: entry `(k, q)` is the
    id at query position `q`, whatever the row `k`. -/
theorem ids_bcast_apply (ids : Vec Ideal S1x1x1024 .i32) (k q : Fin 1024) :
    broadcastTo S1024x1024
        (shapeCast S1x1024 (shapeCast S1024 ids shapeCasts_S1x1x1024_S1024) shapeCasts_S1024_S1x1024)
        broadcasts_S1x1024_S1024x1024 (ix2 k q)
      = ids (ix3 0 0 q) := by
  refine (broadcastTo_1b_ab_apply _ _ k q).trans ?_
  refine (shapeCast_a_1a_apply _ _ 0 q).trans ?_
  refine shapeCast_apply ids _ (ix1 q) (ix3 0 0 q) ?_
  rw [Shape.rowMajor_val_three, Shape.rowMajor_val_one]
  show (0 * 1 + 0) * 1024 + q.val = q.val
  omega

/-- A one-bit condition widened to a word and read as a signed integer is `1` when set and `0` when clear. -/
theorem cond_toInt (x y : BitVec 32) :
    (((IntOp.cmpi .eq x y).setWidth 32).toInt : ℤ) = if x = y then 1 else 0 := by
  show ((BitVec.ofBool (x == y)).setWidth 32).toInt = _
  by_cases h : x = y
  · rw [if_pos h, show (x == y) = true from beq_iff_eq.mpr h]; rfl
  · rw [if_neg h, show (x == y) = false from beq_eq_false_iff_ne.mpr h]; rfl

/-- The one-hot matrix at row `k` and query position `q`: `1` when the id at `q` is the word `k`, else `0`. -/
theorem onehot_apply (ids : Vec Ideal S1x1x1024 .i32) (k q : Fin 1024) :
    (truncf .bf16 (sitofp .f32 (extui 32 (cmpi .eq
        (broadcastTo S1024x1024
          (shapeCast S1x1024 (shapeCast S1024 ids shapeCasts_S1x1x1024_S1024) shapeCasts_S1024_S1x1024)
          broadcasts_S1x1024_S1024x1024)
        (iota .tc S1024x1024 32 [0] iota_S1024x1024_d0_w32)) natLt_1_32)) bitsLt_bf16_f32
      : FVec Ideal S1024x1024 .bf16) (ix2 k q)
      = if (ids (ix3 0 0 q) : BitVec 32) = BitVec.ofNat 32 k.val then (1 : EReal) else 0 := by
  rw [truncf_apply, sitofp_apply, extui_apply]
  show ((((IntOp.cmpi .eq _ _).setWidth 32).toInt : ℝ) : EReal) = _
  rw [ids_bcast_apply, iota_single_apply, cond_toInt]
  show _ = if (ids (ix3 0 0 q) : BitVec 32) = BitVec.ofNat 32 k.val then (1 : EReal) else 0
  split <;> simp

/-! ## The product -/

/-- The one-hot matrix times the table, into the zero accumulator, at query position `q` and feature `d`: the sum
    over the rows `k` of `onehot[k, q] * tab[0, k, d]` has one non-zero term, at the row the id names, and
    `1 * a = a`, `0 * a = 0` for every extended real `a`. -/
theorem onehot_matmul_apply (ids : Vec Ideal S1x1x1024 .i32) (tab : Vec Ideal S1x1024x512 .bf16) (q : Fin 1024) (d : Fin 512)
    (hv : (ids (ix3 0 0 q) : BitVec 32).toNat < 1024) :
    matmul (F := Ideal) dot_S1024x1024_S1024x512_S1024x512_0_0_1_1_n_n none
      (truncf .bf16 (sitofp .f32 (extui 32 (cmpi .eq
        (broadcastTo S1024x1024
          (shapeCast S1x1024 (shapeCast S1024 ids shapeCasts_S1x1x1024_S1024) shapeCasts_S1024_S1x1024)
          broadcasts_S1x1024_S1024x1024)
        (iota .tc S1024x1024 32 [0] iota_S1024x1024_d0_w32)) natLt_1_32)) bitsLt_bf16_f32)
      (shapeCast S1024x512 tab shapeCasts_S1x1024x512_S1024x512 : FVec Ideal S1024x512 .bf16)
      (constant S1024x512 .f32 0x00000000#32) (ix2 q d)
    = tab (ix3 0 ⟨(ids (ix3 0 0 q) : BitVec 32).toNat, hv⟩ d) := by
  simp only [matmul]
  rw [Ideal.matmul_constant_zero_apply, ← Equiv.sum_comp (contrEquiv1 dot_S1024x1024_S1024x512_S1024x512_0_0_1_1_n_n 1024 rfl rfl).symm]
  have hterm : ∀ k : Fin 1024,
      ((truncf .bf16 (sitofp .f32 (extui 32 (cmpi .eq
        (broadcastTo S1024x1024
          (shapeCast S1x1024 (shapeCast S1024 ids shapeCasts_S1x1x1024_S1024) shapeCasts_S1024_S1x1024)
          broadcasts_S1x1024_S1024x1024)
        (iota .tc S1024x1024 32 [0] iota_S1024x1024_d0_w32)) natLt_1_32)) bitsLt_bf16_f32) : FVec Ideal S1024x1024 .bf16)
          (dot_S1024x1024_S1024x512_S1024x512_0_0_1_1_n_n.lhsIdx (ix2 q d) ((contrEquiv1 dot_S1024x1024_S1024x512_S1024x512_0_0_1_1_n_n 1024 rfl rfl).symm k))
        * (shapeCast S1024x512 tab shapeCasts_S1x1024x512_S1024x512 : FVec Ideal S1024x512 .bf16)
          (dot_S1024x1024_S1024x512_S1024x512_0_0_1_1_n_n.rhsIdx (ix2 q d) ((contrEquiv1 dot_S1024x1024_S1024x512_S1024x512_0_0_1_1_n_n 1024 rfl rfl).symm k))
      = if (⟨(ids (ix3 0 0 q) : BitVec 32).toNat, hv⟩ : Fin 1024) = k then (tab (ix3 0 k d) : EReal) else 0 := by
    intro k
    have hk := contrEquiv1_symm_val dot_S1024x1024_S1024x512_S1024x512_0_0_1_1_n_n 1024 rfl rfl k
    have el : dot_S1024x1024_S1024x512_S1024x512_0_0_1_1_n_n.lhsIdx (ix2 q d) ((contrEquiv1 dot_S1024x1024_S1024x512_S1024x512_0_0_1_1_n_n 1024 rfl rfl).symm k) = ix2 k q :=
      funext fun a => Fin.ext (by
        match a with
        | ⟨0, _⟩ => exact (lhs_axis0 _ _).trans hk
        | ⟨1, _⟩ => exact lhs_axis1 _ _)
    have er : dot_S1024x1024_S1024x512_S1024x512_0_0_1_1_n_n.rhsIdx (ix2 q d) ((contrEquiv1 dot_S1024x1024_S1024x512_S1024x512_0_0_1_1_n_n 1024 rfl rfl).symm k) = ix2 k d :=
      funext fun a => Fin.ext (by
        match a with
        | ⟨0, _⟩ => exact (rhs_axis0 _ _).trans hk
        | ⟨1, _⟩ => exact rhs_axis1 _ _)
    rw [el, er, onehot_apply, shapeCast_1ab_ab_apply]
    by_cases h : (ids (ix3 0 0 q) : BitVec 32) = BitVec.ofNat 32 k.val
    · have hkq : (⟨(ids (ix3 0 0 q) : BitVec 32).toNat, hv⟩ : Fin 1024) = k := Fin.ext (by
        show (ids (ix3 0 0 q) : BitVec 32).toNat = k.val
        rw [h, BitVec.toNat_ofNat]
        have := k.isLt
        omega)
      rw [if_pos h, if_pos hkq, one_mul]
    · have hkq : ¬(⟨(ids (ix3 0 0 q) : BitVec 32).toNat, hv⟩ : Fin 1024) = k := fun e => h (by
        rw [← e]
        exact (BitVec.ofNat_toNat _ _).symm ▸ (BitVec.setWidth_eq _).symm)
      rw [if_neg h, if_neg hkq, zero_mul]
  rw [Finset.sum_congr rfl fun k _ => hterm k, Finset.sum_ite_eq, if_pos (Finset.mem_univ _)]

/-- Level 0's product: at query position `q` and feature `d` the one-hot column of the token id `v1[q]` (an id
    among the table's rows) selects that row of the table `v9`. -/
theorem pay1_apply (v1 : Vec Ideal S1x1x1024 .i32) (v9 : Vec Ideal S1x1024x512 .bf16) (q : Fin 1024) (d : Fin 512)
    (hv : (v1 (ix3 0 0 q) : BitVec 32).toNat < 1024) :
    k0_pay1 (F := Ideal) v1 v9 (ix2 q d) = v9 (ix3 0 ⟨(v1 (ix3 0 0 q) : BitVec 32).toNat, hv⟩ d) := by
  unfold k0_pay1
  exact onehot_matmul_apply v1 v9 q d hv

/-- A later level's product added to the running sum. -/
theorem pay2_apply (acc : FVec Ideal S1024x512 .f32) (v18 : Vec Ideal S1x1x1024 .i32) (v27 : Vec Ideal S1x1024x512 .bf16)
    (q : Fin 1024) (d : Fin 512) (hv : (v18 (ix3 0 0 q) : BitVec 32).toNat < 1024) :
    k0_pay2 (F := Ideal) acc v18 v27 (ix2 q d)
      = acc (ix2 q d) + v27 (ix3 0 ⟨(v18 (ix3 0 0 q) : BitVec 32).toNat, hv⟩ d) := by
  unfold k0_pay2
  refine (addf_apply _ _ _).trans ?_
  exact congrArg (acc (ix2 q d) + ·) (onehot_matmul_apply v18 v27 q d hv)

/-- The stored block is the running sum with a leading unit axis. -/
theorem pay3_apply (v13 : FVec Ideal S1024x512 .f32) (q : Fin 1024) (d : Fin 512) :
    k0_pay3 (F := Ideal) v13 (ix3 0 q d) = v13 (ix2 q d) := by
  unfold k0_pay3
  exact shapeCast_ab_1ab_apply v13 _ 0 q d

end Cert.Embed.Pay

end
-- ==== Proof.Spec.lean ====
/-
  The function both programs compute, stated once over the argument arrays.

  A token id selects a row of a level's table: the id is read as a signed integer and clamped into the
  table's rows `0 … 1023`. The result at batch `n`, position `s`, feature `d` is the sum over the eight
  levels `l` of the level-`l` table's row selected by `x[n, l, s]`, at feature `d`.
-/
import Idealize.ShloMosaic.PureOps.Ideal
import Idealize.ShloMosaic.Lib.ValueIdx

noncomputable section

namespace Cert.Embed

open Idealize.ShloMosaic Idealize.ShloMosaic.ValueIdx

/-- The token ids `[batch, level, position]`, the tables `[level, row, feature]`, the result `[batch, position, feature]`. -/
abbrev SX : Shape := ⟨3, ![8, 8, 4096]⟩
abbrev SW : Shape := ⟨3, ![8, 1024, 512]⟩
abbrev SO : Shape := ⟨3, ![8, 4096, 512]⟩

/-- The row a token id selects: the id as a signed integer, clamped into `[0, 1023]`. -/
def row (v : BitVec 32) : Fin 1024 := ⟨min v.toInt.toNat 1023, by omega⟩

theorem row_val (v : BitVec 32) : (row v).val = min v.toInt.toNat 1023 := rfl

/-- The sum over the eight levels of the selected rows. -/
def embedSum (x : IVec SX 32) (w : FVec Ideal SW .f32) : FVec Ideal SO .f32 :=
  fun i => ∑ l : Fin 8, w (ix3 l (row (x (ix3 (i 0) l (i 1)))) (i 2))

theorem embedSum_apply (x : IVec SX 32) (w : FVec Ideal SW .f32) (n : Fin 8) (s : Fin 4096) (d : Fin 512) :
    embedSum x w (ix3 n s d) = ∑ l : Fin 8, w (ix3 l (row (x (ix3 n l s))) d) := rfl

end Cert.Embed

end
-- ==== Proof.Clip.lean ====
/-
  A token id clipped into `[0, 1023]` as a signed integer is, as a natural number, the row the id selects.
-/
import proofs.«402859_j86294482911710_3_alg».proof.Proof.Spec
import Idealize.ShloMosaic.PureOps

noncomputable section

namespace Cert.Embed

open Idealize.ShloMosaic

/-- The signed clip `min 1023 (max 0 v)` of a word, read as a natural number, is the word's signed value
    clamped into `[0, 1023]`. -/
theorem clip_toNat (v : BitVec 32) :
    (IntOp.minsi 1023#32 (IntOp.maxsi 0#32 v)).toNat = min v.toInt.toNat 1023 := by
  -- the two literals, signed and unsigned
  have e0 : (0#32 : BitVec 32).toInt = 0 := by decide
  have e1 : (1023#32 : BitVec 32).toInt = 1023 := by decide
  have n0 : (0#32 : BitVec 32).toNat = 0 := by decide
  have n1 : (1023#32 : BitVec 32).toNat = 1023 := by decide
  -- the signed value of `v` from its unsigned one
  have hc := BitVec.toInt_eq_toNat_cond v
  have hlt : v.toNat < 2 ^ 32 := v.isLt
  unfold IntOp.minsi IntOp.maxsi
  by_cases hneg : v.slt 0#32 = true
  · -- `v < 0`: the inner maximum is 0, which is not above 1023; both sides are 0
    have hn : v.toInt < 0 := by rw [BitVec.slt_iff_toInt_lt, e0] at hneg; exact hneg
    have h10 : ¬ ((1023#32 : BitVec 32).slt 0#32 = true) := by decide
    rw [if_pos hneg, if_neg h10, n0]
    omega
  · -- `0 ≤ v`: the inner maximum is `v`, whose signed and unsigned values agree
    have hn : ¬ v.toInt < 0 := by rw [BitVec.slt_iff_toInt_lt, e0] at hneg; exact hneg
    rw [if_neg hneg]
    by_cases hbig : (1023#32 : BitVec 32).slt v = true
    · -- `1023 < v`: the minimum is 1023
      have hb : 1023 < v.toInt := by rw [BitVec.slt_iff_toInt_lt, e1] at hbig; exact hbig
      rw [if_pos hbig, n1]
      omega
    · -- `v ≤ 1023`: the minimum is `v`
      have hb : ¬ 1023 < v.toInt := by rw [BitVec.slt_iff_toInt_lt, e1] at hbig; exact hbig
      rw [if_neg hbig]
      split at hc <;> omega

/-- The clipped id is one of the table's rows, -/
theorem clip_lt (v : BitVec 32) : (IntOp.minsi 1023#32 (IntOp.maxsi 0#32 v)).toNat < 1024 := by
  rw [clip_toNat]; omega

/-- namely the row the id selects. -/
theorem row_eq_clip (v : BitVec 32) : row v = ⟨(IntOp.minsi 1023#32 (IntOp.maxsi 0#32 v)).toNat, clip_lt v⟩ :=
  Fin.ext (by rw [row_val]; exact (clip_toNat v).symm)

end Cert.Embed

end
-- ==== Proof.KernelValue.lean ====
/-
  The kernel's result array at the ideal values.

  At grid point `t = (n, σ)` the body reads the block `[n, 0‥7, 1024σ ‥ 1024σ+1023]` of the clipped token ids and all
  the tables, and writes the block `[n, 1024σ ‥ 1024σ+1023, 0‥511]` of the result. Level `l`'s one-hot product
  selects, for query position `q`, the row of table `l` whose number is the clipped id; the running sum over the
  levels is therefore the sum of the selected rows, and the blocks of all points tile the result.
-/
import proofs.«402859_j86294482911710_3_alg».proof.Proof.Gen.KernelIdeal.Value
import proofs.«402859_j86294482911710_3_alg».proof.Proof.Opened
import proofs.«402859_j86294482911710_3_alg».proof.Proof.Payload
import proofs.«402859_j86294482911710_3_alg».proof.Proof.Clip
import Idealize.ShloMosaic.Lib.StableHlo.Run

set_option maxRecDepth 16384

noncomputable section

namespace Cert.Embed.Kernel

open Idealize.ShloMosaic Idealize.ShloMosaic.TcCoe Idealize.SL.Sem Idealize.ShloMosaic.ValueIdx
open Cert.KernelIdeal Cert.KernelIdeal.Gen Cert.Embed.Opened
open Idealize.ShloMosaic.Pipeline (Dat)

/-! ## The body's loads read at an index -/

section Loads
variable {F : FTy → Type} [FloatOps F]

theorem trips_le : k0_t1_loop.trips ≤ 7 := k0_t1_abs.2.1

/-- Level 0's ids are row 0 of the block of ids; trip `k`'s are row `k + 1`. -/
theorem ids0_apply (x0 : Vec F S1x8x1024 .i32) (q : Fin 1024) : ids0 x0 (ix3 0 0 q) = x0 (ix3 0 0 q) := by
  show x0 _ = x0 _
  congr 1; funext a; apply Fin.ext
  match a with
  | ⟨0, _⟩ => rfl
  | ⟨1, _⟩ => rfl
  | ⟨2, _⟩ => show 0 + 1 * q.val = q.val; omega

theorem idsAt_apply (x0 : Vec F S1x8x1024 .i32) (k : Fin k0_t1_loop.trips) (q : Fin 1024) :
    idsAt x0 k (ix3 0 0 q) = x0 (ix3 0 ⟨k.val + 1, by have := k.isLt; have := trips_le; omega⟩ q) := by
  show x0 _ = x0 _
  congr 1; funext a; apply Fin.ext
  have e := k0_off1_eq k
  match a with
  | ⟨0, _⟩ => show k0_off1 k 0 + 1 * 0 = 0; rw [e]; rfl
  | ⟨1, _⟩ => show k0_off1 k 1 + 1 * 0 = k.val + 1; rw [e]; rfl
  | ⟨2, _⟩ => show k0_off1 k 2 + 1 * q.val = q.val; rw [e]; show 0 + 1 * q.val = q.val; omega

/-- Level 0's table is table 0 of the tables; trip `k`'s is table `k + 1`. -/
theorem tab0_apply (x1 : Vec F S8x1024x512 .bf16) (r : Fin 1024) (d : Fin 512) : tab0 x1 (ix3 0 r d) = x1 (ix3 0 r d) := by
  show x1 _ = x1 _
  congr 1; funext a; apply Fin.ext
  match a with
  | ⟨0, _⟩ => rfl
  | ⟨1, _⟩ => show 0 + 1 * r.val = r.val; omega
  | ⟨2, _⟩ => show 0 + 1 * d.val = d.val; omega

theorem tabAt_apply (x1 : Vec F S8x1024x512 .bf16) (k : Fin k0_t1_loop.trips) (r : Fin 1024) (d : Fin 512) :
    tabAt x1 k (ix3 0 r d) = x1 (ix3 ⟨k.val + 1, by have := k.isLt; have := trips_le; omega⟩ r d) := by
  show x1 _ = x1 _
  congr 1; funext a; apply Fin.ext
  have e := k0_off2_eq k
  match a with
  | ⟨0, _⟩ => show k0_off2 k 0 + 1 * 0 = k.val + 1; rw [e]; rfl
  | ⟨1, _⟩ => show k0_off2 k 1 + 1 * r.val = r.val; rw [e]; show 0 + 1 * r.val = r.val; omega
  | ⟨2, _⟩ => show k0_off2 k 2 + 1 * d.val = d.val; rw [e]; show 0 + 1 * d.val = d.val; omega

end Loads

/-! ## The running sum at an index -/

section Sum
variable (x0 : Vec Ideal S1x8x1024 .i32) (x1 : Vec Ideal S8x1024x512 .bf16)

/-- Table `l`, row `r`, feature `d` of the tables, with the table and row numbers as natural numbers. -/
def sel (l r : ℕ) (d : Fin 512) : EReal := if h : l < 8 ∧ r < 1024 then x1 (ix3 ⟨l, h.1⟩ ⟨r, h.2⟩ d) else 0
/-- The id at level `l` and position `q` of the block of ids, as a natural number. -/
def idn (q : Fin 1024) (l : ℕ) : ℕ := if h : l < 8 then (x0 (ix3 0 ⟨l, h⟩ q) : BitVec 32).toNat else 0

theorem sel_eq (l : Fin 8) (r : Fin 1024) (d : Fin 512) : sel x1 l.val r.val d = x1 (ix3 l r d) := by
  unfold sel; rw [dif_pos ⟨l.isLt, r.isLt⟩]
theorem idn_eq (q : Fin 1024) (l : Fin 8) : idn x0 q l.val = (x0 (ix3 0 l q) : BitVec 32).toNat := by
  unfold idn; rw [dif_pos l.isLt]

theorem trips_eq : k0_t1_loop.trips = 7 := by decide

/-- Before trip `n` the running sum holds, at position `q` and feature `d`, the rows selected at levels `0 … n`. -/
theorem accAt_apply (hx0 : ∀ (l : Fin 8) (q : Fin 1024), (x0 (ix3 0 l q) : BitVec 32).toNat < 1024) (q : Fin 1024) (d : Fin 512) :
    ∀ n, n ≤ 7 → accAt x0 x1 n (ix2 q d) = ∑ l ∈ Finset.range (n + 1), sel x1 l (idn x0 q l) d
  | 0, _ => by
    have hv : (ids0 x0 (ix3 0 0 q) : BitVec 32).toNat < 1024 := by rw [ids0_apply]; exact hx0 0 q
    show k0_pay1 (F := Ideal) (ids0 x0) (tab0 x1) (ix2 q d) = _
    rw [Pay.pay1_apply _ _ q d hv, tab0_apply, Finset.sum_range_one, ← sel_eq x1 0 ⟨_, hv⟩ d]
    show sel x1 0 (ids0 x0 (ix3 0 0 q) : BitVec 32).toNat d = _
    rw [ids0_apply]
    exact congrArg (fun r => sel x1 0 r d) (idn_eq x0 q 0).symm
  | n + 1, hn => by
    have h : n < k0_t1_loop.trips := by rw [trips_eq]; omega
    have hl : n + 1 < 8 := by omega
    have hv : (idsAt x0 ⟨n, h⟩ (ix3 0 0 q) : BitVec 32).toNat < 1024 := by rw [idsAt_apply]; exact hx0 ⟨n + 1, hl⟩ q
    rw [accAt, dif_pos h, Pay.pay2_apply _ _ _ q d hv, accAt_apply hx0 q d n (by omega), Finset.sum_range_succ _ (n + 1),
      tabAt_apply]
    refine congrArg (_ + ·) ?_
    rw [← sel_eq x1 ⟨n + 1, hl⟩ ⟨_, hv⟩ d]
    show sel x1 (n + 1) (idsAt x0 ⟨n, h⟩ (ix3 0 0 q) : BitVec 32).toNat d = _
    rw [idsAt_apply]
    exact congrArg (fun r => sel x1 (n + 1) r d) (idn_eq x0 q ⟨n + 1, hl⟩).symm

/-- After the last level: the sum over the eight levels of the selected rows. -/
theorem acc_final (hx0 : ∀ (l : Fin 8) (q : Fin 1024), (x0 (ix3 0 l q) : BitVec 32).toNat < 1024) (q : Fin 1024) (d : Fin 512) :
    accAt x0 x1 7 (ix2 q d) = ∑ l : Fin 8, x1 (ix3 l ⟨(x0 (ix3 0 l q) : BitVec 32).toNat, hx0 l q⟩ d) := by
  rw [accAt_apply x0 x1 hx0 q d 7 le_rfl, Finset.sum_range (fun l => sel x1 l (idn x0 q l) d)]
  refine Finset.sum_congr rfl fun l _ => ?_
  rw [← sel_eq x1 l ⟨_, hx0 l q⟩ d]
  exact congrArg (fun r => sel x1 l.val r d) (idn_eq x0 q l)

end Sum

/-! ## The arrays the region finds, and the points' blocks -/

section Final
variable (m : (ℓ : Loc nD τ sig) → Buf (Elt Ideal) ℓ)

/-- The argument arrays: the token ids and the tables. -/
abbrev X (c : Dev nD) : IVec S8x8x4096 32 := m ((c : Thread nD τ).loc main_arg0)
abbrev W (c : Dev nD) : FVec Ideal S8x1024x512 .f32 := m ((c : Thread nD τ).loc main_arg1)

/-- The region finds the token ids clipped into `[0, 1023]`, -/
theorem V_ids (c : Dev nD) (i : S8x8x4096.Idx) :
    (V m c main_v0 : IVec S8x8x4096 32) i = IntOp.minsi 1023#32 (IntOp.maxsi 0#32 (X m c i)) := by
  have e : (V m c main_v0 : IVec S8x8x4096 32)
      = minsi (broadcastInDim S8x8x4096 ![] bcast_S_S8x8x4096 (constantI S_ 32 1023#32))
          (maxsi (broadcastInDim S8x8x4096 ![] bcast_S_S8x8x4096 (constantI S_ 32 0#32)) (X m c)) := by
    dsimp only [V]
    simp only [hostOps0, hostOps0_1, hostOps0_2, List.flatten_cons, List.flatten_nil, List.append_nil, List.cons_append,
      List.nil_append]
    after_results
    rfl
  rw [e]; rfl

/-- and the tables in the narrower float format, which at the ideal values are the tables themselves. -/
theorem V_tab (c : Dev nD) (i : S8x1024x512.Idx) : (V m c main_v1 : FVec Ideal S8x1024x512 .bf16) i = W m c i := by
  have e : (V m c main_v1 : FVec Ideal S8x1024x512 .bf16) = truncf .bf16 (W m c) bitsLt_bf16_f32 := by
    dsimp only [V]
    simp only [hostOps0, hostOps0_1, hostOps0_2, List.flatten_cons, List.flatten_nil, List.append_nil, List.cons_append,
      List.nil_append]
    after_results
  rw [e]; rfl

/-- A point's block of ids and its block of the tables (the whole of them). -/
abbrev xblk (c : Dev nD) (t : Fin cfg0.N) : Vec Ideal S1x8x1024 .i32 := iblk m c 0 t
abbrev wblk (c : Dev nD) (t : Fin cfg0.N) : Vec Ideal S8x1024x512 .bf16 := iblk m c 1 t

/-- The index maps over the grid: the ids' block follows the result's block (batch, position tile), the tables' block
    is the whole array, and the result's blocks range over the 8 batches and the 4 position tiles. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = 0 ∧ win0_1.index t (1 : Fin 3) = 0 ∧ win0_1.index t (2 : Fin 3) = 0
    ∧ win0_2.index t (0 : Fin 3) ≤ 7 ∧ win0_2.index t (1 : Fin 3) ≤ 3 ∧ win0_2.index t (2 : Fin 3) = 0 :=
  (by decide +kernel : ∀ t : Fin grid0.N, _)

theorem idx_onto : ∀ (n : Fin 8) (σ : Fin 4), ∃ t : Fin cfg0.N, win0_2.index t = ![n.val, σ.val, 0] :=
  (by decide +kernel : ∀ (n : Fin 8) (σ : Fin 4), ∃ t : Fin grid0.N, win0_2.index t = ![n.val, σ.val, 0])

/-- The block of ids at level `l`, position `q`: the clipped id at the point's batch and position. -/
theorem xblk_apply (c : Dev nD) (t : Fin cfg0.N) (l : Fin 8) (q : Fin 1024) (i : S8x8x4096.Idx)
    (h0 : (i 0).val = win0_2.index t (0 : Fin 3)) (h1 : (i 1).val = l.val)
    (h2 : (i 2).val = win0_2.index t (1 : Fin 3) * 1024 + q.val) :
    xblk m c t (ix3 0 l q) = IntOp.minsi 1023#32 (IntOp.maxsi 0#32 (X m c i)) := by
  rw [← V_ids]
  show (V m c main_v0 : IVec S8x8x4096 32) (((cfg0.win 0).blk t).view.emb (ix3 0 l q)) = (V m c main_v0 : IVec S8x8x4096 32) i
  congr 1; funext a; apply Fin.ext
  obtain ⟨e0, e1, e2, -⟩ := idx_facts t
  match a with
  | ⟨0, _⟩ => show win0_0.index t (0 : Fin 3) * 1 + 1 * 0 = (i 0).val; omega
  | ⟨1, _⟩ => show win0_0.index t (1 : Fin 3) * 8 + 1 * l.val = (i 1).val; omega
  | ⟨2, _⟩ => show win0_0.index t (2 : Fin 3) * 1024 + 1 * q.val = (i 2).val; omega

/-- The block of the tables is the tables. -/
theorem wblk_apply (c : Dev nD) (t : Fin cfg0.N) (l : Fin 8) (r : Fin 1024) (d : Fin 512) :
    wblk m c t (ix3 l r d) = W m c (ix3 l r d) := by
  rw [← V_tab]
  show (V m c main_v1 : FVec Ideal S8x1024x512 .bf16) (((cfg0.win 1).blk t).view.emb (ix3 l r d)) = (V m c main_v1 : FVec Ideal S8x1024x512 .bf16) (ix3 l r d)
  congr 1; funext a; apply Fin.ext
  obtain ⟨-, -, -, e3, e4, e5, -⟩ := idx_facts t
  match a with
  | ⟨0, _⟩ => show win0_1.index t (0 : Fin 3) * 8 + 1 * l.val = l.val; omega
  | ⟨1, _⟩ => show win0_1.index t (1 : Fin 3) * 1024 + 1 * r.val = r.val; omega
  | ⟨2, _⟩ => show win0_1.index t (2 : Fin 3) * 512 + 1 * d.val = d.val; omega

/-- Every id of a point's block is one of a table's rows. -/
theorem xblk_lt (c : Dev nD) (t : Fin cfg0.N) (l : Fin 8) (q : Fin 1024) : (xblk m c t (ix3 0 l q) : BitVec 32).toNat < 1024 := by
  obtain ⟨-, -, -, -, -, -, b0, b1, -⟩ := idx_facts t
  rw [xblk_apply m c t l q (ix3 ⟨win0_2.index t (0 : Fin 3), by omega⟩ l ⟨win0_2.index t (1 : Fin 3) * 1024 + q.val, by have := q.isLt; omega⟩) rfl rfl rfl]
  exact clip_lt _

end Final

/-! ## What a point writes back, the cover, and the result array -/

section Result
variable (m : (ℓ : Loc nD τ sig) → Buf (Elt Ideal) ℓ)

/-- WHAT POINT `t` WRITES BACK is its block of the sum over the levels of the selected rows. -/
theorem flushed_eq (c : Dev nD) (t : Fin cfg0.N) :
    (dats m 0 c).flushed 2 t = ((cfg0.win 2).blk t).view.read (Elt Ideal) (embedSum (X m c) (W m c)) := by
  rw [Cert.KernelIdeal.Value.flushed2_A, Opened.out_eq]
  funext j
  obtain ⟨j0, q, d, rfl⟩ : ∃ (j0 : Fin 1) (q : Fin 1024) (d : Fin 512), j = ix3 j0 q d := ⟨j 0, j 1, j 2, eq_ix3 j⟩
  obtain rfl : j0 = 0 := Subsingleton.elim _ _
  show k0_pay3 (F := Ideal) (accAt (xblk m c t) (wblk m c t) 7) (ix3 0 q d)
    = embedSum (X m c) (W m c) (((cfg0.win 2).blk t).view.emb (ix3 0 q d))
  rw [Pay.pay3_apply, acc_final _ _ (xblk_lt m c t)]
  obtain ⟨-, -, -, -, -, -, b0, b1, b2⟩ := idx_facts t
  have hn : ((((cfg0.win 2).blk t).view.emb (ix3 0 q d)) 0).val = win0_2.index t (0 : Fin 3) := by
    show win0_2.index t (0 : Fin 3) * 1 + 1 * 0 = _; omega
  have hs : ((((cfg0.win 2).blk t).view.emb (ix3 0 q d)) 1).val = win0_2.index t (1 : Fin 3) * 1024 + q.val := by
    show win0_2.index t (1 : Fin 3) * 1024 + 1 * q.val = _; omega
  have hd : ((((cfg0.win 2).blk t).view.emb (ix3 0 q d)) 2).val = d.val := by
    show win0_2.index t (2 : Fin 3) * 512 + 1 * d.val = _; omega
  refine Finset.sum_congr rfl fun l _ => ?_
  rw [wblk_apply]
  congr 1; funext a; apply Fin.ext
  match a with
  | ⟨0, _⟩ => rfl
  | ⟨1, _⟩ =>
    show (xblk m c t (ix3 0 l q) : BitVec 32).toNat = (row _).val
    rw [xblk_apply m c t l q (ix3 ((((cfg0.win 2).blk t).view.emb (ix3 0 q d)) 0) l ((((cfg0.win 2).blk t).view.emb (ix3 0 q d)) 1)) hn rfl hs,
      row_val, clip_toNat]
  | ⟨2, _⟩ => exact hd.symm

/-- An index of the result is in point `t`'s block iff each coordinate is in the block's range on its axis. -/
theorem mem_blk (t : Fin cfg0.N) (i : S8x4096x512.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v2).slice (win0_2.rect t)).set ↔ _
  rw [View.set_slice_whole, Rect.mem_set_unit]
  exact Iff.rfl

/-- The points' blocks tile the result: the index `(n, s, d)` is in the block of the point `(n, s / 1024)`. -/
theorem cover (i : S8x4096x512.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- THE RESULT ARRAY after the run: the sum over the levels of the rows the clipped ids select. -/
theorem final (c : Dev nD) : (dats m 0 c).arrAt 2 cfg0.N = embedSum (X m c) (W m c) :=
  (dats m 0 c).arrAt_eq_of_cover 2 (embedSum (X m c) (W m c)) (fun t _ => flushed_eq m c t) cover

/-- The kernel's run, read: the result array at that function of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = embedSum (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Result

end Cert.Embed.Kernel

end
-- ==== Proof.RefValue.lean ====
/-
  The reference read at an index: the gather of the tables at the pair (level, token id), summed over the levels.
-/
import proofs.«402859_j86294482911710_3_alg».proof.Proof.Gen.ReferenceIdeal.Read
import proofs.«402859_j86294482911710_3_alg».proof.Proof.Spec
import Idealize.ShloMosaic.Lib.StableHlo.Predicate

noncomputable section

namespace Cert.Embed.Ref

open Idealize.ShloMosaic Idealize.ShloMosaic.ValueIdx Cert.ReferenceIdeal Cert.ReferenceIdeal.Gen Cert.ReferenceIdeal.Read

variable {F : FTy → Type} [FloatOps F]

/-! ## Words -/

/-- A word that is not negative as a signed integer is not below zero: the signed compare answers the bit 0. -/
theorem cmpi_slt_zero (v : BitVec 32) (h : 0 ≤ v.toInt) : IntOp.cmpi .slt v 0#32 = 0#1 := by
  have hf : v.slt 0#32 = false := by
    rw [BitVec.slt, BitVec.toInt_zero]
    exact decide_eq_false (by omega)
  show BitVec.ofBool (v.slt 0#32) = 0#1
  rw [hf]; rfl

/-- A level number, as a 32-bit word, reads back as itself. -/
theorem level_toInt (l : Fin 8) : (BitVec.ofNat 32 l.val).toInt = (l.val : Int) :=
  StableHlo.Predicate.toInt_ofNat_small l.val (by have := l.isLt; omega)

/-! ## The start indices -/

/-- Component 0 of the start index at batch n, level l, position s is the level number. -/
theorem level_read (n : Fin 8) (l : Fin 8) (s : Fin 4096) :
    val_main_v13 (F := F) (ix4 n l s (0 : Fin 1)) = BitVec.ofNat 32 l.val := by
  rw [val_main_v13_apply, val_main_v12_apply, val_main_v6_apply, val_main_v3_apply, val_main_v5_apply,
    val_main_v2_apply, val_main_c_apply, val_main_v1_apply, val_main_v0_apply]
  show Scalar.select (IntOp.cmpi .slt (BitVec.ofNat 32 l.val) 0#32) _ (BitVec.ofNat 32 l.val) = _
  rw [cmpi_slt_zero _ (by rw [level_toInt]; omega), select_zero]

/-- Component 1 of the start index at batch n, level l, position s is the token id there, when it is not negative. -/
theorem token_read (x : IVec S8x8x4096 32) (hx : ∀ j, 0 ≤ (x j).toInt) (n : Fin 8) (l : Fin 8) (s : Fin 4096) :
    val_main_v14 (F := F) x (ix4 n l s (0 : Fin 1)) = x (ix3 n l s) := by
  rw [val_main_v14_apply, val_main_v11_apply, val_main_v8_apply, val_main_v7_apply, val_main_c_1_apply]
  have hi : idx_main_v14 (ix4 n l s (0 : Fin 1)) = ix3 n l s := by
    funext a; match a with | ⟨0, _⟩ => rfl | ⟨1, _⟩ => rfl | ⟨2, _⟩ => rfl
  rw [hi, cmpi_slt_zero _ (hx _), select_zero]

/-- The start indices join the two components along their last axis: at component 0 they hold the level number. -/
theorem start_level (x : IVec S8x8x4096 32) (n : Fin 8) (l : Fin 8) (s : Fin 4096) :
    val_main_v15 (F := F) x (ix4 n l s (0 : Fin 2)) = BitVec.ofNat 32 l.val := by
  unfold val_main_v15
  rw [concatenate_pair_apply_left (t := S8x8x4096x2) (s₁ := S8x8x4096x1) (s₂ := S8x8x4096x1) (3 : Fin 4) _ _ _
    (ix4 n l s (0 : Fin 2)) rfl (ix4 n l s (0 : Fin 1))
    (fun b => match b with | ⟨0, _⟩ => rfl | ⟨1, _⟩ => rfl | ⟨2, _⟩ => rfl | ⟨3, _⟩ => rfl)]
  exact level_read n l s

/-- At component 1 the start indices hold the token id, when it is not negative. -/
theorem start_token (x : IVec S8x8x4096 32) (hx : ∀ j, 0 ≤ (x j).toInt) (n : Fin 8) (l : Fin 8) (s : Fin 4096) :
    val_main_v15 (F := F) x (ix4 n l s (1 : Fin 2)) = x (ix3 n l s) := by
  unfold val_main_v15
  rw [concatenate_pair_apply_right (t := S8x8x4096x2) (s₁ := S8x8x4096x1) (s₂ := S8x8x4096x1) (3 : Fin 4) _ _ _
    (ix4 n l s (1 : Fin 2)) rfl rfl (ix4 n l s (0 : Fin 1))
    (fun b hb => match b, hb with
      | ⟨0, _⟩, _ => rfl | ⟨1, _⟩, _ => rfl | ⟨2, _⟩, _ => rfl | ⟨3, _⟩, hb => absurd rfl hb) rfl]
  exact token_read x hx n l s

/-! ## The gather -/

/-- The gather's dimension numbers: axes 0 and 1 of the table are collapsed and start-indexed, axis 2 is the one offset axis. -/
abbrev G : GatherDims S8x1024x512 S8x8x4096x2 S8x8x4096x512 :=
  gather_S8x1024x512_S8x8x4096x2_S8x8x4096x512_3_01_n_n_01_3_11512

/-- The gather at batch n, level l, position s, feature d reads the table at the start index's two components, each read
    signed and clamped into its axis, and at feature d. -/
theorem gather_apply {α : Type} (tbl : S8x1024x512.Idx → α) (idx : IVec S8x8x4096x2 32)
    (n : Fin 8) (l : Fin 8) (s : Fin 4096) (d : Fin 512) :
    Host.gather G tbl idx (ix4 n l s d)
      = tbl (ix3 (⟨min (idx (ix4 n l s (0 : Fin 2))).toInt.toNat 7, by omega⟩ : Fin 8)
          (⟨min (idx (ix4 n l s (1 : Fin 2))).toInt.toNat 1023, by omega⟩ : Fin 1024) d) := by
  unfold Host.gather
  congr 1
  funext a
  refine Fin.ext ?_
  match a with
  | ⟨0, _⟩ =>
    show G.start (ix4 n l s d) idx 0 + G.batchCoord (ix4 n l s d) 0 + G.offCoord (ix4 n l s d) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ G.startIndexMap by decide)]
    have hsi : G.siIdx (ix4 n l s d) ⟨List.idxOf (0 : Fin 3) G.startIndexMap,
        List.idxOf_lt_length_iff.2 (by decide)⟩ = ix4 n l s (0 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show G.start (ix4 n l s d) idx 1 + G.batchCoord (ix4 n l s d) 1 + G.offCoord (ix4 n l s d) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ G.startIndexMap by decide)]
    have hsi : G.siIdx (ix4 n l s d) ⟨List.idxOf (1 : Fin 3) G.startIndexMap,
        List.idxOf_lt_length_iff.2 (by decide)⟩ = ix4 n l s (1 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show G.start (ix4 n l s d) idx 2 + G.batchCoord (ix4 n l s d) 2 + G.offCoord (ix4 n l s d) 2 = d.val
    rw [GatherDims.batchCoord_eq_zero _ _ _ List.not_mem_nil]
    unfold GatherDims.start GatherDims.offCoord
    rw [dif_neg (show (2 : Fin 3) ∉ G.startIndexMap by decide), dif_pos (show (2 : Fin 3) ∈ G.sKept by decide)]
    simp only [Nat.add_zero, Nat.zero_add]
    rfl

/-- On token ids that are not negative the reference's result is the sum over the levels of the selected rows. -/
theorem ref_eq (x : IVec S8x8x4096 32) (w : FVec Ideal S8x1024x512 .f32) (hx : ∀ j, 0 ≤ (x j).toInt) :
    val_main_v17 (F := Ideal) x w = Cert.Embed.embedSum x w := by
  funext i
  obtain ⟨n, s, d, rfl⟩ : ∃ (n : Fin 8) (s : Fin 4096) (d : Fin 512), i = ix3 n s d := ⟨i 0, i 1, i 2, eq_ix3 i⟩
  rw [val_main_v17_apply, val_main_cst_apply, Cert.Embed.embedSum_apply]
  show Ideal.ofBits .f32 0x00000000#32 + _ = _
  rw [Ideal.ofBits_zero_f32, zero_add]
  refine Finset.sum_congr rfl fun l _ => ?_
  -- the summand at level l: the gather at (n, l, s, d)
  have hi : idx_main_v17 (ix3 n s d) l = ix4 n l s d := by
    funext a; match a with | ⟨0, _⟩ => rfl | ⟨1, _⟩ => rfl | ⟨2, _⟩ => rfl | ⟨3, _⟩ => rfl
  rw [hi]
  unfold val_main_v16
  rw [gather_apply w (val_main_v15 (F := Ideal) x) n l s d]
  congr 1
  funext a
  match a with
  | ⟨0, _⟩ =>
    -- the level: its word reads back as l, which is below the table's eight levels
    refine Fin.ext ?_
    show min (val_main_v15 (F := Ideal) x (ix4 n l s (0 : Fin 2))).toInt.toNat 7 = l.val
    rw [start_level, level_toInt]
    have := l.isLt
    omega
  | ⟨1, _⟩ =>
    -- the row: the token id, read signed and clamped
    refine Fin.ext ?_
    show min (val_main_v15 (F := Ideal) x (ix4 n l s (1 : Fin 2))).toInt.toNat 1023 = (Cert.Embed.row (x (ix3 n l s))).val
    rw [start_token x hx, Cert.Embed.row_val]
  | ⟨2, _⟩ => rfl

end Cert.Embed.Ref

end
-- ==== Proof.PreRead.lean ====
/-
  The precondition read: every token id is not negative.
-/
import proofs.«402859_j86294482911710_3_alg».proof.Proof.Gen.Pre_finite_inputs
import Idealize.ShloMosaic.Lib.ReduceAll
import Idealize.ShloMosaic.Lib.ValueIdx
import Idealize.ShloMosaic.Lib.StableHlo.Predicate

noncomputable section

namespace Cert.Embed.Pre

open Idealize.ShloMosaic Idealize.ShloMosaic.ValueIdx Cert.Pre_finite_inputs

variable {F : FTy → Type} [FloatOps F]

/-- The scalar shape has exactly one index: an index is a function out of `Fin 0`. -/
instance subsingleton_scalarIdx : Subsingleton S_.Idx := ⟨fun a b => funext fun d => d.elim0⟩

/-- Where the precondition holds, every token id is a non-negative signed integer.

The function's one result word is the `and` of two all-reductions; being 1, both are 1. The second is the
all-reduction of the entrywise signed compare `x ≥ 0`, so every entry of that compare is 1. At index `j` the
right operand is the scalar constant 0 broadcast, hence the word `0#32`, and the compare being 1 reads
`(0#32).toInt ≤ (x j).toInt`. -/
theorem nonneg_of_pre [Cert.Pre_finite_inputs.Facts] (x : IVec S8x8x4096 32) (w : FVec F S8x1024x512 .f32)
    (h : Cert.Pre_finite_inputs.fn (F := F) x w = fun _ => 1#1) : ∀ j, 0 ≤ (x j).toInt := by
  intro j
  -- the one result word
  have h0 := congrFun h ValueIdx.ix0
  dsimp only [Cert.Pre_finite_inputs.fn, andi] at h0
  -- the second conjunct: the all-reduction of the compare is 1
  obtain ⟨-, h2⟩ := IntOp.andi_eq_one.1 h0
  -- so the compare is 1 at j
  have h3 := Host.reduce_andi_all _ _ _ _ _ h2 j
  -- the broadcast constant is 0#32 at j
  have h4 : IntOp.cmpi .sge (x j) (0#32) = 1#1 := h3
  rw [IntOp.cmpi_sge] at h4
  simpa using h4

end Cert.Embed.Pre

end
-- ==== Proof.lean ====
/-
  The certificate: a multi-level embedding lookup computed as one-hot products against the gather it stands for.

  The kernel clips every token id into the tables' rows `0 … 1023`, and per batch and tile of 1024 positions forms,
  level by level, the product of the one-hot matrix of the clipped ids with the level's table, summing the eight
  products. A one-hot column times a table is the table's row, so the block is the sum over the levels of the rows the
  clipped ids select. The reference gathers the tables at the pairs (level, id) — an id read the way an array index is
  (a negative one counted from the end), and the gather clamping what is still out of range — and sums over the
  levels. For ids that are not negative both select the row `min id 1023`, and the two results are one function of the
  arguments (`Cert.Embed.embedSum`); the sums agree as sums in a commutative monoid, whatever the tables hold.
  The precondition says the ids are not negative; the tables' finiteness is not used.
-/
import proofs.«402859_j86294482911710_3_alg».proof.Defs
import proofs.«402859_j86294482911710_3_alg».proof.Proof.Gen.Kernel
import proofs.«402859_j86294482911710_3_alg».proof.Proof.Gen.Kernel.Skeleton
import proofs.«402859_j86294482911710_3_alg».proof.Proof.Gen.Kernel.Loops
import proofs.«402859_j86294482911710_3_alg».proof.Proof.Gen.Kernel.Launch
import proofs.«402859_j86294482911710_3_alg».proof.Proof.Gen.Kernel.Points
import proofs.«402859_j86294482911710_3_alg».proof.Proof.Gen.Kernel.Frame
import proofs.«402859_j86294482911710_3_alg».proof.Proof.Gen.KernelIdeal
import proofs.«402859_j86294482911710_3_alg».proof.Proof.Gen.KernelIdeal.Skeleton
import proofs.«402859_j86294482911710_3_alg».proof.Proof.Gen.KernelIdeal.Loops
import proofs.«402859_j86294482911710_3_alg».proof.Proof.Gen.KernelIdeal.Launch
import proofs.«402859_j86294482911710_3_alg».proof.Proof.Gen.KernelIdeal.Points
import proofs.«402859_j86294482911710_3_alg».proof.Proof.Gen.KernelIdeal.Frame
import proofs.«402859_j86294482911710_3_alg».proof.Proof.Gen.ReferenceIdeal
import proofs.«402859_j86294482911710_3_alg».proof.Proof.Gen.Pre_finite_inputs
import proofs.«402859_j86294482911710_3_alg».proof.Proof.Gen.KernelIdeal.Value
import proofs.«402859_j86294482911710_3_alg».proof.Proof.Gen.ReferenceIdeal.Run
import proofs.«402859_j86294482911710_3_alg».proof.Proof.Gen.ReferenceIdeal.Read
import proofs.«402859_j86294482911710_3_alg».proof.Proof.KernelValue
import proofs.«402859_j86294482911710_3_alg».proof.Proof.RefValue
import proofs.«402859_j86294482911710_3_alg».proof.Proof.PreRead
import Idealize.ShloMosaic.Adequacy
import Idealize.ShloMosaic.Init

noncomputable section

namespace Cert.Proof

open Idealize.ShloMosaic Idealize.ShloMosaic.TcCoe Idealize.SL.Sem

/-- Both word-level and idealized kernels run to the end with their arguments unchanged: the generated frames. -/
theorem frame_k : Cert.frame_Kernel := fun m ρ _ => Cert.Kernel.Gen.frame m ρ
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the token ids and the tables, with no id negative, both programs end with the sum over
    the levels of the selected rows. -/
theorem algebraic : Cert.algebraic_KernelIdeal_ReferenceIdeal := by
  intro m ρ m' ρ' hpre hagree
  refine ⟨fun c => Cert.Embed.embedSum (Cert.Embed.Kernel.X m c) (Cert.Embed.Kernel.W m c), Cert.Embed.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.Embed.Ref.ref_eq _ _ (Cert.Embed.Pre.nonneg_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
